-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S128x64 .f32) (main_arg9 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : IVec S1600000 32) (main_arg11 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x64, .f32⟩
  | .hbm, ⟨77, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Layer.lean ====
/-
  One dense layer of the graph network, index by index on the extended reals.

  A node's new feature q is   Σₖ h (p, k) · ws (k, q)  +  Σₖ hn (p, k) · wn (k, q)  +  b (0, q),
  where h holds the nodes' own features, hn the averaged features of their in-neighbours, ws and wn the two weight
  matrices and b the bias laid out as a one-row matrix; the two hidden layers then take the maximum with the
  zero word's value. Nothing here needs an entry to be finite: the layer is the same expression on both sides.
-/
import Idealize.ShloMosaic.PureOps.Ideal
import Idealize.ShloMosaic.Lib.ValueIdx

noncomputable section

namespace Cert.Sage

open Idealize.ShloMosaic Idealize.ShloMosaic.ValueIdx

variable {N K D : Nat}

/-- Entry (p, q) of  h · ws + hn · wn + b. -/
def affineAt (h hn : FVec Ideal ⟨2, ![N, K]⟩ .f32) (ws wn : FVec Ideal ⟨2, ![K, D]⟩ .f32)
    (b : FVec Ideal ⟨2, ![1, D]⟩ .f32) (p : Fin N) (q : Fin D) : Ideal .f32 :=
  (∑ k : Fin K, h (ix2 p k) * ws (ix2 k q) + ∑ k : Fin K, hn (ix2 p k) * wn (ix2 k q)) + b (ix2 0 q)

/-- The layer as one array: the affine entry, cut off below at the zero word's value when `relu` is set. -/
def dense (relu : Bool) (h hn : FVec Ideal ⟨2, ![N, K]⟩ .f32) (ws wn : FVec Ideal ⟨2, ![K, D]⟩ .f32)
    (b : FVec Ideal ⟨2, ![1, D]⟩ .f32) : FVec Ideal ⟨2, ![N, D]⟩ .f32 := fun i =>
  if relu then
    max (affineAt h hn ws wn b ⟨(i 0).val, idx2_lt0 i⟩ ⟨(i 1).val, idx2_lt1 i⟩) (Ideal.ofBits .f32 0x00000000#32)
  else affineAt h hn ws wn b ⟨(i 0).val, idx2_lt0 i⟩ ⟨(i 1).val, idx2_lt1 i⟩

/-- A hidden layer at (p, q). -/
theorem dense_true_apply (h hn : FVec Ideal ⟨2, ![N, K]⟩ .f32) (ws wn : FVec Ideal ⟨2, ![K, D]⟩ .f32)
    (b : FVec Ideal ⟨2, ![1, D]⟩ .f32) (p : Fin N) (q : Fin D) :
    dense true h hn ws wn b (ix2 p q) = max (affineAt h hn ws wn b p q) (Ideal.ofBits .f32 0x00000000#32) := rfl

/-- The output layer at (p, q). -/
theorem dense_false_apply (h hn : FVec Ideal ⟨2, ![N, K]⟩ .f32) (ws wn : FVec Ideal ⟨2, ![K, D]⟩ .f32)
    (b : FVec Ideal ⟨2, ![1, D]⟩ .f32) (p : Fin N) (q : Fin D) :
    dense false h hn ws wn b (ix2 p q) = affineAt h hn ws wn b p q := rfl

/-- The whole network: two hidden layers and the output layer, each fed the features before it and their aggregation
    `aggF` (the same function of a feature array at all three layers), with its own weights and bias row. -/
def net (aggF : FVec Ideal ⟨2, ![N, K]⟩ .f32 → FVec Ideal ⟨2, ![N, K]⟩ .f32) (x : FVec Ideal ⟨2, ![N, K]⟩ .f32)
    (ws0 wn0 : FVec Ideal ⟨2, ![K, K]⟩ .f32) (b0 : FVec Ideal ⟨2, ![1, K]⟩ .f32)
    (ws1 wn1 : FVec Ideal ⟨2, ![K, K]⟩ .f32) (b1 : FVec Ideal ⟨2, ![1, K]⟩ .f32)
    (ws2 wn2 : FVec Ideal ⟨2, ![K, D]⟩ .f32) (b2 : FVec Ideal ⟨2, ![1, D]⟩ .f32) : FVec Ideal ⟨2, ![N, D]⟩ .f32 :=
  dense false (dense true (dense true x (aggF x) ws0 wn0 b0) (aggF (dense true x (aggF x) ws0 wn0 b0)) ws1 wn1 b1)
    (aggF (dense true (dense true x (aggF x) ws0 wn0 b0) (aggF (dense true x (aggF x) ws0 wn0 b0)) ws1 wn1 b1)) ws2 wn2 b2

end Cert.Sage

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDot2.lean ====
/-
  The host's rank-2 by rank-2 `dot_general`, read at an index at the ideal values.

  For a dimension record that contracts the left operand's second axis against the right operand's first, with no batch
  axis, the product of an [M, K] and a [K, N] matrix read at (p, h) is the plain sum  Σₖ a (p, k) · b (k, h)  over the
  extended reals: the host's product has no accumulator. The record's four coordinate facts (which operand coordinate is
  the output's row, the output's column, the contraction index) are hypotheses, decided on a literal record by whoever
  instantiates the lemma. The same sum is what a matrix unit's product into a zero accumulator reads, so the two meet.
-/
import Idealize.ShloMosaic.PureOps.Ideal.Laws
import Idealize.ShloMosaic.Lib.ValueIdx

noncomputable section

namespace Cert.LibDot2

open Idealize.ShloMosaic Idealize.ShloMosaic.ValueIdx

/-- The host's matrix product at (p, h) is Σₖ a (p, k) · b (k, h). -/
theorem hostDot_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    Host.dotGeneral D none a b (ix2 p h) = ∑ k : Fin K, a (ix2 p k) * b (ix2 k h) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibDot2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.LayerOps.lean ====
/-
  The two machines' spellings of one dense layer, read at an index.

  The vector unit forms  x₀ · x₂ + x₁ · x₃  with two matrix products into a zero accumulator (its operands narrowed to
  a 16-bit format first, which changes no extended real) and adds the bias row spread over the block's rows; the host
  forms the same two products without an accumulator and adds the bias row spread over the array's rows. For a
  dimension record that contracts the left operand's columns with the right operand's rows, each product at (p, q)
  is  Σₖ a (p, k) · b (k, q),  so both spellings read the layer's affine entry.
-/
import Idealize.ShloMosaic.PureOps.Ideal.Laws
import Idealize.ShloMosaic.Lib.ValueIdx
import Idealize.ShloMosaic.Lib.Pipeline.Value
import proofs.«156895_j7146825581283_1_alg».proof.Proof.Layer
import proofs.«156895_j7146825581283_1_alg».proof.Proof.LibMatmul2
import proofs.«156895_j7146825581283_1_alg».proof.Proof.LibDot2
import proofs.«156895_j7146825581283_1_alg».proof.Proof.LibDotAxes

noncomputable section

namespace Cert.Sage

open Idealize.ShloMosaic Idealize.ShloMosaic.ValueIdx

variable {N K D : Nat}

/-- A dimension record of the plain kind: the left operand's columns against the right operand's rows, no batch axis. -/
structure PlainDot (R : DotDims ⟨2, ![N, K]⟩ ⟨2, ![K, D]⟩ ⟨2, ![N, D]⟩) : Prop where
  lc : R.lhsContracting = [1]
  rc : R.rhsContracting = [0]
  ln : R.lhsNonContracting = [0]
  rn : R.rhsNonContracting = [1]
  lb : R.lhsBatch = []
  rb : R.rhsBatch = []

theorem PlainDot.rank_pos {R : DotDims ⟨2, ![N, K]⟩ ⟨2, ![K, D]⟩ ⟨2, ![N, D]⟩} (hR : PlainDot R) : 0 < R.contr.rank := by
  rw [LibDotAxes.contr_rank R hR.lc]; exact Nat.one_pos

/-- The vector unit's product into the zero accumulator at (p, q). -/
theorem matmul_plain {φ₁ φ₂ : FTy} (R : DotDims ⟨2, ![N, K]⟩ ⟨2, ![K, D]⟩ ⟨2, ![N, D]⟩) (hR : PlainDot R)
    (a : FVec Ideal ⟨2, ![N, K]⟩ φ₁) (b : FVec Ideal ⟨2, ![K, D]⟩ φ₂) (p : Fin N) (q : Fin D) :
    matmul R none a b (constant ⟨2, ![N, D]⟩ .f32 0x00000000#32) (ix2 p q) = ∑ k : Fin K, a (ix2 p k) * b (ix2 k q) :=
  LibMatmul2.matmul_zero_apply R (LibDotAxes.contr_rank R hR.lc) (LibDotAxes.contr_size R hR.lc hR.rank_pos)
    (LibDotAxes.lhs_row R hR.lb hR.ln) (fun i x => LibDotAxes.lhs_col R hR.lc i x hR.rank_pos)
    (fun i x => LibDotAxes.rhs_row R hR.rc i x hR.rank_pos) (LibDotAxes.rhs_col R hR.lb hR.ln hR.rb hR.rn) a b p q

/-- The host's product at (p, q). -/
theorem hostDot_plain {φ₁ φ₂ : FTy} (R : DotDims ⟨2, ![N, K]⟩ ⟨2, ![K, D]⟩ ⟨2, ![N, D]⟩) (hR : PlainDot R)
    (a : FVec Ideal ⟨2, ![N, K]⟩ φ₁) (b : FVec Ideal ⟨2, ![K, D]⟩ φ₂) (p : Fin N) (q : Fin D) :
    Host.dotGeneral R none a b (ix2 p q) = ∑ k : Fin K, a (ix2 p k) * b (ix2 k q) :=
  LibDot2.hostDot_apply R (LibDotAxes.contr_rank R hR.lc) (LibDotAxes.contr_size R hR.lc hR.rank_pos)
    (LibDotAxes.lhs_row R hR.lb hR.ln) (fun i x => LibDotAxes.lhs_col R hR.lc i x hR.rank_pos)
    (fun i x => LibDotAxes.rhs_row R hR.rc i x hR.rank_pos) (LibDotAxes.rhs_col R hR.lb hR.ln hR.rb hR.rn) a b p q

/-- A one-row matrix spread over the rows of a block (the vector unit's broadcast) reads its row at every row. -/
theorem rowSpread_apply (b : FVec Ideal ⟨2, ![1, D]⟩ .f32) (hb : (⟨2, ![1, D]⟩ : Shape).Broadcasts ⟨2, ![N, D]⟩)
    (p : Fin N) (q : Fin D) : broadcastTo ⟨2, ![N, D]⟩ b hb (ix2 p q) = b (ix2 0 q) := by
  refine broadcastTo_apply b hb (ix2 p q) (ix2 0 q) fun a => ?_
  match a with
  | ⟨0, _⟩ => exact (if_pos rfl).symm
  | ⟨1, _⟩ =>
    show q.val = if D = 1 then 0 else q.val
    split_ifs with h
    · have := q.isLt; omega
    · rfl

/-- The same row spread over the rows of the whole array (the host's broadcast along both axes). -/
theorem rowSpreadInDim_apply (b : FVec Ideal ⟨2, ![1, D]⟩ .f32)
    (hb : (⟨2, ![1, D]⟩ : Shape).BroadcastsInDim ⟨2, ![N, D]⟩ (![0, 1] : Fin 2 → Fin 2)) (p : Fin N) (q : Fin D) :
    broadcastInDim ⟨2, ![N, D]⟩ (![0, 1] : Fin 2 → Fin 2) hb b (ix2 p q) = b (ix2 0 q) := by
  refine broadcastInDim_apply (![0, 1] : Fin 2 → Fin 2) hb b (ix2 p q) (ix2 0 q) fun a => ?_
  match a with
  | ⟨0, _⟩ => exact (if_pos rfl).symm
  | ⟨1, _⟩ =>
    show q.val = if D = 1 then 0 else q.val
    split_ifs with h
    · have := q.isLt; omega
    · rfl

/-- The vector unit's affine part at (p, q): the narrowed operands' two products and the spread bias row. -/
theorem vecAffine_apply (R : DotDims ⟨2, ![N, K]⟩ ⟨2, ![K, D]⟩ ⟨2, ![N, D]⟩) (hR : PlainDot R)
    (x0 x1 : FVec Ideal ⟨2, ![N, K]⟩ .f32) (x2 x3 : FVec Ideal ⟨2, ![K, D]⟩ .f32) (x4 : FVec Ideal ⟨2, ![1, D]⟩ .f32)
    (hlt : FTy.bits .bf16 < FTy.bits .f32) (hb : (⟨2, ![1, D]⟩ : Shape).Broadcasts ⟨2, ![N, D]⟩) (p : Fin N) (q : Fin D) :
    addf (addf (matmul R none (truncf .bf16 x0 hlt) (truncf .bf16 x2 hlt) (constant ⟨2, ![N, D]⟩ .f32 0x00000000#32))
        (matmul R none (truncf .bf16 x1 hlt) (truncf .bf16 x3 hlt) (constant ⟨2, ![N, D]⟩ .f32 0x00000000#32)))
      (broadcastTo ⟨2, ![N, D]⟩ x4 hb) (ix2 p q) = affineAt x0 x1 x2 x3 x4 p q := by
  rw [addf_apply, addf_apply, matmul_plain R hR, matmul_plain R hR, rowSpread_apply]
  rfl

/-- The host's affine part at (p, q). -/
theorem hostAffine_apply (R : DotDims ⟨2, ![N, K]⟩ ⟨2, ![K, D]⟩ ⟨2, ![N, D]⟩) (hR : PlainDot R)
    (h hn : FVec Ideal ⟨2, ![N, K]⟩ .f32) (ws wn : FVec Ideal ⟨2, ![K, D]⟩ .f32) (b : FVec Ideal ⟨2, ![1, D]⟩ .f32)
    (hb : (⟨2, ![1, D]⟩ : Shape).BroadcastsInDim ⟨2, ![N, D]⟩ (![0, 1] : Fin 2 → Fin 2)) (p : Fin N) (q : Fin D) :
    addf (addf (Host.dotGeneral R none h ws) (Host.dotGeneral R none hn wn))
      (broadcastInDim ⟨2, ![N, D]⟩ (![0, 1] : Fin 2 → Fin 2) hb b) (ix2 p q) = affineAt h hn ws wn b p q := by
  rw [addf_apply, addf_apply, hostDot_plain R hR, hostDot_plain R hR, rowSpreadInDim_apply]
  rfl

/-- The host's output layer is the layer without the cut-off. -/
theorem hostLayer_eq (R : DotDims ⟨2, ![N, K]⟩ ⟨2, ![K, D]⟩ ⟨2, ![N, D]⟩) (hR : PlainDot R)
    (h hn : FVec Ideal ⟨2, ![N, K]⟩ .f32) (ws wn : FVec Ideal ⟨2, ![K, D]⟩ .f32) (b : FVec Ideal ⟨2, ![1, D]⟩ .f32)
    (hb : (⟨2, ![1, D]⟩ : Shape).BroadcastsInDim ⟨2, ![N, D]⟩ (![0, 1] : Fin 2 → Fin 2)) :
    addf (addf (Host.dotGeneral R none h ws) (Host.dotGeneral R none hn wn))
      (broadcastInDim ⟨2, ![N, D]⟩ (![0, 1] : Fin 2 → Fin 2) hb b) = dense false h hn ws wn b := by
  funext i
  obtain ⟨p, q, rfl⟩ : ∃ (p : Fin N) (q : Fin D), i = ix2 p q := ⟨i 0, i 1, eq_ix2 i⟩
  rw [dense_false_apply]
  exact hostAffine_apply R hR h hn ws wn b hb p q

/-- The host's hidden layer — the maximum with the zero word spread over the array — is the layer with the cut-off. -/
theorem hostLayer_relu_eq (R : DotDims ⟨2, ![N, K]⟩ ⟨2, ![K, D]⟩ ⟨2, ![N, D]⟩) (hR : PlainDot R)
    (h hn : FVec Ideal ⟨2, ![N, K]⟩ .f32) (ws wn : FVec Ideal ⟨2, ![K, D]⟩ .f32) (b : FVec Ideal ⟨2, ![1, D]⟩ .f32)
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2)) :
    maximumf (addf (addf (Host.dotGeneral R none h ws) (Host.dotGeneral R none hn wn))
        (broadcastInDim ⟨2, ![N, D]⟩ (![0, 1] : Fin 2 → Fin 2) hb b))
      (broadcastInDim ⟨2, ![N, D]⟩ (![] : Fin 0 → Fin 2) hz (constant (F := Ideal) ⟨0, ![]⟩ .f32 0x00000000#32))
      = dense true h hn ws wn b := by
  funext i
  obtain ⟨p, q, rfl⟩ : ∃ (p : Fin N) (q : Fin D), i = ix2 p q := ⟨i 0, i 1, eq_ix2 i⟩
  rw [dense_true_apply, maximumf_apply, hostAffine_apply R hR h hn ws wn b hb p q]
  rfl

end Cert.Sage

end
-- ==== Proof.Region0Value.lean ====
/-
  The first pallas_call as a function of the arrays it is entered with.

  Grid point t stages rows 2000·t … 2000·t + 1999 of the node features and of the averaged neighbour features, both
  weight matrices whole and the bias row whole, and writes back rows 2000·t … 2000·t + 1999 of the result. The stored
  block's entry (p, q) is the layer's affine entry of the staged blocks cut off at zero, and a staged block's row p is
  the array's row 2000·t + p, so what point t writes back is block t of the dense layer of the whole arrays. The fifty
  blocks tile the 100000 rows, so the result array ends at the layer.
-/
import proofs.«156895_j7146825581283_1_alg».proof.Proof.KernelIdealFrameP
import proofs.«156895_j7146825581283_1_alg».proof.Proof.LayerOps
import Idealize.ShloMosaic.Lib.Pipeline.Value

set_option maxRecDepth 16384

noncomputable section

namespace Cert.KernelIdeal.Val0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products contract the staged features' columns with the weights' rows. -/
theorem plain : Sage.PlainDot dot_S2000x128_S128x128_S2000x128_1_0_0_1_n_n := ⟨rfl, rfl, rfl, rfl, rfl, rfl⟩

/-- The stored value at (p, q): the affine entry of the loaded blocks, cut off at zero. -/
theorem pay_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = max (Sage.affineAt x0 x1 x2 x3 x4 p q) (Ideal.ofBits .f32 0x00000000#32) := by
  unfold k0_pay1
  simp only [shapeCast_self]
  exact congrArg (fun z => max z (Ideal.ofBits .f32 0x00000000#32))
    (Sage.vecAffine_apply dot_S2000x128_S128x128_S2000x128_1_0_0_1_n_n plain x0 x1 x2 x3 x4 bitsLt_bf16_f32
      broadcasts_S1x128_S2000x128 p q)

/-- The printed index maps over the grid: the two feature windows and the result window move one block of rows per
    point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 50 := N_0

/-- The arrays the region is entered with, at their literal types. -/
abbrev hArr (c : Dev nD) : Vec Ideal S100000x128 .f32 := V c main_arg0
abbrev nArr (c : Dev nD) : Vec Ideal S100000x128 .f32 := V c main_v20
abbrev wsArr (c : Dev nD) : Vec Ideal S128x128 .f32 := V c main_arg1
abbrev wnArr (c : Dev nD) : Vec Ideal S128x128 .f32 := V c main_arg2
abbrev bArr (c : Dev nD) : Vec Ideal S1x128 .f32 := V c main_v21

/-- The dense layer, with the cut-off, of the arrays the region is entered with. -/
abbrev layer (c : Dev nD) : Vec Ideal S100000x128 .f32 :=
  Sage.dense true (hArr V c) (nArr V c) (wsArr V c) (wnArr V c) (bArr V c)

/-- Row p of grid point t's block is row 2000·t + p of the array. -/
def rowOf (t : Fin cfg0.N) (p : Fin 2000) : Fin 100000 :=
  ⟨t.val * 2000 + p.val, by have h : t.val < 50 := N_eq ▸ t.isLt; have := p.isLt; omega⟩

/-- The node features' block at point t is rows 2000·t … of the array. -/
theorem hblk_apply (c : Dev nD) (t : Fin cfg0.N) (p : Fin 2000) (k : Fin 128) :
    (iblk0 V c 0 t : Vec Ideal S2000x128 .f32) (ix2 p k) = hArr V c (ix2 (rowOf t p) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The neighbour features' block at point t is the same rows of its array. -/
theorem nblk_apply (c : Dev nD) (t : Fin cfg0.N) (p : Fin 2000) (k : Fin 128) :
    (iblk0 V c 1 t : Vec Ideal S2000x128 .f32) (ix2 p k) = nArr V c (ix2 (rowOf t p) k) := by
  obtain ⟨-, -, e0, e1, -⟩ := idx_facts t
  unfold iblk0
  rw [View.read_apply]
  show V c main_v20 _ = V c main_v20 _
  refine congrArg (V c main_v20) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Each weight matrix is staged whole at every point. -/
theorem wsblk_apply (c : Dev nD) (t : Fin cfg0.N) (k : Fin 128) (q : Fin 128) :
    (iblk0 V c 2 t : Vec Ideal S128x128 .f32) (ix2 k q) = wsArr V c (ix2 k q) := by
  obtain ⟨-, -, -, -, e0, e1, -⟩ := idx_facts t
  unfold iblk0
  rw [View.read_apply]
  show V c main_arg1 _ = V c main_arg1 _
  refine congrArg (V c main_arg1) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem wnblk_apply (c : Dev nD) (t : Fin cfg0.N) (k : Fin 128) (q : Fin 128) :
    (iblk0 V c 3 t : Vec Ideal S128x128 .f32) (ix2 k q) = wnArr V c (ix2 k q) := by
  obtain ⟨-, -, -, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- So is the bias row. -/
theorem bblk_apply (c : Dev nD) (t : Fin cfg0.N) (q : Fin 128) :
    (iblk0 V c 4 t : Vec Ideal S1x128 .f32) (ix2 0 q) = bArr V c (ix2 0 q) := by
  obtain ⟨-, -, -, -, -, -, -, -, e0, e1, -⟩ := idx_facts t
  unfold iblk0
  rw [View.read_apply]
  show V c main_v21 _ = V c main_v21 _
  refine congrArg (V c main_v21) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The affine entry (p, q) of point t's staged blocks is the affine entry (2000·t + p, q) of the whole arrays. -/
theorem affine_blk (c : Dev nD) (t : Fin cfg0.N) (p : Fin 2000) (q : Fin 128) :
    Sage.affineAt (iblk0 V c 0 t : Vec Ideal S2000x128 .f32) (iblk0 V c 1 t : Vec Ideal S2000x128 .f32)
        (iblk0 V c 2 t : Vec Ideal S128x128 .f32) (iblk0 V c 3 t : Vec Ideal S128x128 .f32)
        (iblk0 V c 4 t : Vec Ideal S1x128 .f32) p q
      = Sage.affineAt (hArr V c) (nArr V c) (wsArr V c) (wnArr V c) (bArr V c) (rowOf t p) q := by
  unfold Sage.affineAt
  rw [bblk_apply V c t q]
  refine congrArg (· + bArr V c (ix2 0 q)) (congrArg₂ (· + ·) ?_ ?_)
  · exact Finset.sum_congr rfl fun k _ => by rw [hblk_apply V c t p k, wsblk_apply V c t k q]
  · exact Finset.sum_congr rfl fun k _ => by rw [nblk_apply V c t p k, wnblk_apply V c t k q]

/-- WHAT POINT t WRITES BACK is block t of the layer of the arrays the region is entered with. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have hemb : ((cfg0.win 5).blk t).view.emb (ix2 p q) = ix2 (rowOf t p) q := funext fun a => Fin.ext (by
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega)
  show k0_pay1 (iblk0 V c 0 t) (iblk0 V c 1 t) (iblk0 V c 2 t) (iblk0 V c 3 t) (iblk0 V c 4 t) (ix2 p q)
    = layer V c (((cfg0.win 5).blk t).view.emb (ix2 p q))
  rw [hemb]
  refine (pay_apply (iblk0 V c 0 t) (iblk0 V c 1 t) (iblk0 V c 2 t) (iblk0 V c 3 t) (iblk0 V c 4 t) p q).trans ?_
  rw [affine_blk V c t p q]
  exact (Sage.dense_true_apply (hArr V c) (nArr V c) (wsArr V c) (wnArr V c) (bArr V c) (rowOf t p) q).symm

/-- An index of the result array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v22).slice (win0_5.rect t)).set ↔ _
  rw [View.set_slice_whole, Rect.mem_set_unit]
  exact Iff.rfl

/-- Row r of the result lies in the block of point r / 2000: the fifty blocks tile the array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 := ⟨⟨(i 0).val / 2000, by rw [N_eq]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the region: the layer of the arrays the region is entered with. -/
theorem final (c : Dev nD) : (dat0 V c).arrAt 5 cfg0.N = layer V c :=
  (dat0 V c).arrAt_eq_of_cover 5 (layer V c) (fun t _ => flushed_eq V c t) cover

end Cert.KernelIdeal.Val0

end
-- ==== Proof.Region1Value.lean ====
/-
  The second pallas_call as a function of the arrays it is entered with.

  Grid point t stages rows 2000·t … 2000·t + 1999 of the node features and of the averaged neighbour features, both
  weight matrices whole and the bias row whole, and writes back rows 2000·t … 2000·t + 1999 of the result. The stored
  block's entry (p, q) is the layer's affine entry of the staged blocks cut off at zero, and a staged block's row p is
  the array's row 2000·t + p, so what point t writes back is block t of the dense layer of the whole arrays. The fifty
  blocks tile the 100000 rows, so the result array ends at the layer.
-/
import proofs.«156895_j7146825581283_1_alg».proof.Proof.KernelIdealFrameP
import proofs.«156895_j7146825581283_1_alg».proof.Proof.LayerOps
import Idealize.ShloMosaic.Lib.Pipeline.Value

set_option maxRecDepth 16384

noncomputable section

namespace Cert.KernelIdeal.Val1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products contract the staged features' columns with the weights' rows. -/
theorem plain : Sage.PlainDot dot_S2000x128_S128x128_S2000x128_1_0_0_1_n_n := ⟨rfl, rfl, rfl, rfl, rfl, rfl⟩

/-- The stored value at (p, q): the affine entry of the loaded blocks, cut off at zero. -/
theorem pay_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = max (Sage.affineAt x0 x1 x2 x3 x4 p q) (Ideal.ofBits .f32 0x00000000#32) := by
  unfold k1_pay1
  simp only [shapeCast_self]
  exact congrArg (fun z => max z (Ideal.ofBits .f32 0x00000000#32))
    (Sage.vecAffine_apply dot_S2000x128_S128x128_S2000x128_1_0_0_1_n_n plain x0 x1 x2 x3 x4 bitsLt_bf16_f32
      broadcasts_S1x128_S2000x128 p q)

/-- The printed index maps over the grid: the two feature windows and the result window move one block of rows per
    point; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N_eq : cfg1.N = 50 := N_1

/-- The arrays the region is entered with, at their literal types. -/
abbrev hArr (c : Dev nD) : Vec Ideal S100000x128 .f32 := V c main_v22
abbrev nArr (c : Dev nD) : Vec Ideal S100000x128 .f32 := V c main_v35
abbrev wsArr (c : Dev nD) : Vec Ideal S128x128 .f32 := V c main_arg4
abbrev wnArr (c : Dev nD) : Vec Ideal S128x128 .f32 := V c main_arg5
abbrev bArr (c : Dev nD) : Vec Ideal S1x128 .f32 := V c main_v36

/-- The dense layer, with the cut-off, of the arrays the region is entered with. -/
abbrev layer (c : Dev nD) : Vec Ideal S100000x128 .f32 :=
  Sage.dense true (hArr V c) (nArr V c) (wsArr V c) (wnArr V c) (bArr V c)

/-- Row p of grid point t's block is row 2000·t + p of the array. -/
def rowOf (t : Fin cfg1.N) (p : Fin 2000) : Fin 100000 :=
  ⟨t.val * 2000 + p.val, by have h : t.val < 50 := N_eq ▸ t.isLt; have := p.isLt; omega⟩

/-- The node features' block at point t is rows 2000·t … of the array. -/
theorem hblk_apply (c : Dev nD) (t : Fin cfg1.N) (p : Fin 2000) (k : Fin 128) :
    (iblk1 V c 0 t : Vec Ideal S2000x128 .f32) (ix2 p k) = hArr V c (ix2 (rowOf t p) k) := by
  obtain ⟨e0, e1, -⟩ := idx_facts t
  unfold iblk1
  rw [View.read_apply]
  show V c main_v22 _ = V c main_v22 _
  refine congrArg (V c main_v22) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The neighbour features' block at point t is the same rows of its array. -/
theorem nblk_apply (c : Dev nD) (t : Fin cfg1.N) (p : Fin 2000) (k : Fin 128) :
    (iblk1 V c 1 t : Vec Ideal S2000x128 .f32) (ix2 p k) = nArr V c (ix2 (rowOf t p) k) := by
  obtain ⟨-, -, e0, e1, -⟩ := idx_facts t
  unfold iblk1
  rw [View.read_apply]
  show V c main_v35 _ = V c main_v35 _
  refine congrArg (V c main_v35) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- Each weight matrix is staged whole at every point. -/
theorem wsblk_apply (c : Dev nD) (t : Fin cfg1.N) (k : Fin 128) (q : Fin 128) :
    (iblk1 V c 2 t : Vec Ideal S128x128 .f32) (ix2 k q) = wsArr V c (ix2 k q) := by
  obtain ⟨-, -, -, -, e0, e1, -⟩ := idx_facts t
  unfold iblk1
  rw [View.read_apply]
  show V c main_arg4 _ = V c main_arg4 _
  refine congrArg (V c main_arg4) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem wnblk_apply (c : Dev nD) (t : Fin cfg1.N) (k : Fin 128) (q : Fin 128) :
    (iblk1 V c 3 t : Vec Ideal S128x128 .f32) (ix2 k q) = wnArr V c (ix2 k q) := by
  obtain ⟨-, -, -, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- So is the bias row. -/
theorem bblk_apply (c : Dev nD) (t : Fin cfg1.N) (q : Fin 128) :
    (iblk1 V c 4 t : Vec Ideal S1x128 .f32) (ix2 0 q) = bArr V c (ix2 0 q) := by
  obtain ⟨-, -, -, -, -, -, -, -, e0, e1, -⟩ := idx_facts t
  unfold iblk1
  rw [View.read_apply]
  show V c main_v36 _ = V c main_v36 _
  refine congrArg (V c main_v36) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- The affine entry (p, q) of point t's staged blocks is the affine entry (2000·t + p, q) of the whole arrays. -/
theorem affine_blk (c : Dev nD) (t : Fin cfg1.N) (p : Fin 2000) (q : Fin 128) :
    Sage.affineAt (iblk1 V c 0 t : Vec Ideal S2000x128 .f32) (iblk1 V c 1 t : Vec Ideal S2000x128 .f32)
        (iblk1 V c 2 t : Vec Ideal S128x128 .f32) (iblk1 V c 3 t : Vec Ideal S128x128 .f32)
        (iblk1 V c 4 t : Vec Ideal S1x128 .f32) p q
      = Sage.affineAt (hArr V c) (nArr V c) (wsArr V c) (wnArr V c) (bArr V c) (rowOf t p) q := by
  unfold Sage.affineAt
  rw [bblk_apply V c t q]
  refine congrArg (· + bArr V c (ix2 0 q)) (congrArg₂ (· + ·) ?_ ?_)
  · exact Finset.sum_congr rfl fun k _ => by rw [hblk_apply V c t p k, wsblk_apply V c t k q]
  · exact Finset.sum_congr rfl fun k _ => by rw [nblk_apply V c t p k, wnblk_apply V c t k q]

/-- WHAT POINT t WRITES BACK is block t of the layer of the arrays the region is entered with. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have hemb : ((cfg1.win 5).blk t).view.emb (ix2 p q) = ix2 (rowOf t p) q := funext fun a => Fin.ext (by
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega)
  show k1_pay1 (iblk1 V c 0 t) (iblk1 V c 1 t) (iblk1 V c 2 t) (iblk1 V c 3 t) (iblk1 V c 4 t) (ix2 p q)
    = layer V c (((cfg1.win 5).blk t).view.emb (ix2 p q))
  rw [hemb]
  refine (pay_apply (iblk1 V c 0 t) (iblk1 V c 1 t) (iblk1 V c 2 t) (iblk1 V c 3 t) (iblk1 V c 4 t) p q).trans ?_
  rw [affine_blk V c t p q]
  exact (Sage.dense_true_apply (hArr V c) (nArr V c) (wsArr V c) (wnArr V c) (bArr V c) (rowOf t p) q).symm

/-- An index of the result array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v37).slice (win1_5.rect t)).set ↔ _
  rw [View.set_slice_whole, Rect.mem_set_unit]
  exact Iff.rfl

/-- Row r of the result lies in the block of point r / 2000: the fifty blocks tile the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 := ⟨⟨(i 0).val / 2000, by rw [N_eq]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- THE RESULT ARRAY after the region: the layer of the arrays the region is entered with. -/
theorem final (c : Dev nD) : (dat1 V c).arrAt 5 cfg1.N = layer V c :=
  (dat1 V c).arrAt_eq_of_cover 5 (layer V c) (fun t _ => flushed_eq V c t) cover

end Cert.KernelIdeal.Val1

end
-- ==== Proof.Region2Value.lean ====
/-
  The third pallas_call, the output layer, as a function of the arrays it is entered with.

  As in the two hidden layers, grid point t stages rows 2000·t … 2000·t + 1999 of the second hidden layer's features and
  of their neighbour averages, and both weight matrices and the bias row whole; here the weights have 64 columns and
  the stored block's entry (p, q) is the affine entry itself, with no cut-off. A staged block's row p is the array's
  row 2000·t + p, so point t writes back block t of the dense layer of the whole arrays, and the fifty blocks tile the
  100000 rows of the [100000, 64] result.
-/
import proofs.«156895_j7146825581283_1_alg».proof.Proof.KernelIdealFrameP
import proofs.«156895_j7146825581283_1_alg».proof.Proof.LayerOps
import Idealize.ShloMosaic.Lib.Pipeline.Value

set_option maxRecDepth 16384

noncomputable section

namespace Cert.KernelIdeal.Val2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products contract the staged features' columns with the weights' rows. -/
theorem plain : Sage.PlainDot dot_S2000x128_S128x64_S2000x64_1_0_0_1_n_n := ⟨rfl, rfl, rfl, rfl, rfl, rfl⟩

/-- The stored value at (p, q): the affine entry of the loaded blocks; the output layer has no cut-off. -/
theorem pay_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q)
      = Sage.affineAt x0 x1 x2 x3 x4 p q := by
  unfold k2_pay1
  simp only [shapeCast_self]
  exact Sage.vecAffine_apply dot_S2000x128_S128x64_S2000x64_1_0_0_1_n_n plain x0 x1 x2 x3 x4 bitsLt_bf16_f32
    broadcasts_S1x64_S2000x64 p q

/-- The printed index maps over the grid: the two feature windows and the result window move one block of rows per
    point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N_eq : cfg2.N = 50 := N_2

/-- The arrays the region is entered with, at their literal types. -/
abbrev hArr (c : Dev nD) : Vec Ideal S100000x128 .f32 := V c main_v37
abbrev nArr (c : Dev nD) : Vec Ideal S100000x128 .f32 := V c main_v50
abbrev wsArr (c : Dev nD) : Vec Ideal S128x64 .f32 := V c main_arg7
abbrev wnArr (c : Dev nD) : Vec Ideal S128x64 .f32 := V c main_arg8
abbrev bArr (c : Dev nD) : Vec Ideal S1x64 .f32 := V c main_v51

/-- The dense layer, without the cut-off, of the arrays the region is entered with. -/
abbrev layer (c : Dev nD) : Vec Ideal S100000x64 .f32 :=
  Sage.dense false (hArr V c) (nArr V c) (wsArr V c) (wnArr V c) (bArr V c)

/-- Row p of grid point t's block is row 2000·t + p of the array. -/
def rowOf (t : Fin cfg2.N) (p : Fin 2000) : Fin 100000 :=
  ⟨t.val * 2000 + p.val, by have h : t.val < 50 := N_eq ▸ t.isLt; have := p.isLt; omega⟩

/-- The node features' block at point t is rows 2000·t … of the array. -/
theorem hblk_apply (c : Dev nD) (t : Fin cfg2.N) (p : Fin 2000) (k : Fin 128) :
    (iblk2 V c 0 t : Vec Ideal S2000x128 .f32) (ix2 p k) = hArr V c (ix2 (rowOf t p) k) := by
  obtain ⟨e0, e1, -⟩ := idx_facts t
  unfold iblk2
  rw [View.read_apply]
  show V c main_v37 _ = V c main_v37 _
  refine congrArg (V c main_v37) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The neighbour features' block at point t is the same rows of its array. -/
theorem nblk_apply (c : Dev nD) (t : Fin cfg2.N) (p : Fin 2000) (k : Fin 128) :
    (iblk2 V c 1 t : Vec Ideal S2000x128 .f32) (ix2 p k) = nArr V c (ix2 (rowOf t p) k) := by
  obtain ⟨-, -, e0, e1, -⟩ := idx_facts t
  unfold iblk2
  rw [View.read_apply]
  show V c main_v50 _ = V c main_v50 _
  refine congrArg (V c main_v50) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

/-- Each weight matrix is staged whole at every point. -/
theorem wsblk_apply (c : Dev nD) (t : Fin cfg2.N) (k : Fin 128) (q : Fin 64) :
    (iblk2 V c 2 t : Vec Ideal S128x64 .f32) (ix2 k q) = wsArr V c (ix2 k q) := by
  obtain ⟨-, -, -, -, e0, e1, -⟩ := idx_facts t
  unfold iblk2
  rw [View.read_apply]
  show V c main_arg7 _ = V c main_arg7 _
  refine congrArg (V c main_arg7) (funext fun a => Fin.ext ?_)
  match a with
  | ⟨0, _⟩ => show win2_2.index t (0 : Fin 2) * 128 + 1 * k.val = k.val; rw [e0]; omega
  | ⟨1, _⟩ => show win2_2.index t (1 : Fin 2) * 64 + 1 * q.val = q.val; rw [e1]; omega

theorem wnblk_apply (c : Dev nD) (t : Fin cfg2.N) (k : Fin 128) (q : Fin 64) :
    (iblk2 V c 3 t : Vec Ideal S128x64 .f32) (ix2 k q) = wnArr V c (ix2 k q) := by
  obtain ⟨-, -, -, -, -, -, e0, e1, -⟩ := idx_facts t
  unfold iblk2
  rw [View.read_apply]
  show V c main_arg8 _ = V c main_arg8 _
  refine congrArg (V c main_arg8) (funext fun a => Fin.ext ?_)
  match a with
  | ⟨0, _⟩ => show win2_3.index t (0 : Fin 2) * 128 + 1 * k.val = k.val; rw [e0]; omega
  | ⟨1, _⟩ => show win2_3.index t (1 : Fin 2) * 64 + 1 * q.val = q.val; rw [e1]; omega

/-- So is the bias row. -/
theorem bblk_apply (c : Dev nD) (t : Fin cfg2.N) (q : Fin 64) :
    (iblk2 V c 4 t : Vec Ideal S1x64 .f32) (ix2 0 q) = bArr V c (ix2 0 q) := by
  obtain ⟨-, -, -, -, -, -, -, -, e0, e1, -⟩ := idx_facts t
  unfold iblk2
  rw [View.read_apply]
  show V c main_v51 _ = V c main_v51 _
  refine congrArg (V c main_v51) (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- The affine entry (p, q) of point t's staged blocks is the affine entry (2000·t + p, q) of the whole arrays. -/
theorem affine_blk (c : Dev nD) (t : Fin cfg2.N) (p : Fin 2000) (q : Fin 64) :
    Sage.affineAt (iblk2 V c 0 t : Vec Ideal S2000x128 .f32) (iblk2 V c 1 t : Vec Ideal S2000x128 .f32)
        (iblk2 V c 2 t : Vec Ideal S128x64 .f32) (iblk2 V c 3 t : Vec Ideal S128x64 .f32)
        (iblk2 V c 4 t : Vec Ideal S1x64 .f32) p q
      = Sage.affineAt (hArr V c) (nArr V c) (wsArr V c) (wnArr V c) (bArr V c) (rowOf t p) q := by
  unfold Sage.affineAt
  rw [bblk_apply V c t q]
  refine congrArg (· + bArr V c (ix2 0 q)) (congrArg₂ (· + ·) ?_ ?_)
  · exact Finset.sum_congr rfl fun k _ => by rw [hblk_apply V c t p k, wsblk_apply V c t k q]
  · exact Finset.sum_congr rfl fun k _ => by rw [nblk_apply V c t p k, wnblk_apply V c t k q]

/-- WHAT POINT t WRITES BACK is block t of the layer of the arrays the region is entered with. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  obtain ⟨-, -, -, -, -, -, -, -, -, -, e0, e1⟩ := idx_facts t
  have hemb : ((cfg2.win 5).blk t).view.emb (ix2 p q) = ix2 (rowOf t p) q := funext fun a => Fin.ext (by
    match a with
    | ⟨0, _⟩ => show win2_5.index t (0 : Fin 2) * 2000 + 1 * p.val = t.val * 2000 + p.val; rw [e0]; omega
    | ⟨1, _⟩ => show win2_5.index t (1 : Fin 2) * 64 + 1 * q.val = q.val; rw [e1]; omega)
  show k2_pay1 (iblk2 V c 0 t) (iblk2 V c 1 t) (iblk2 V c 2 t) (iblk2 V c 3 t) (iblk2 V c 4 t) (ix2 p q)
    = layer V c (((cfg2.win 5).blk t).view.emb (ix2 p q))
  rw [hemb]
  refine (pay_apply (iblk2 V c 0 t) (iblk2 V c 1 t) (iblk2 V c 2 t) (iblk2 V c 3 t) (iblk2 V c 4 t) p q).trans ?_
  rw [affine_blk V c t p q]
  exact (Sage.dense_false_apply (hArr V c) (nArr V c) (wsArr V c) (wnArr V c) (bArr V c) (rowOf t p) q).symm

/-- An index of the result array is in point t's block iff each coordinate is in the block's range on its axis. -/
theorem mem_blk (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v52).slice (win2_5.rect t)).set ↔ _
  rw [View.set_slice_whole, Rect.mem_set_unit]
  exact Iff.rfl

/-- Row r of the result lies in the block of point r / 2000: the fifty blocks tile the array. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 2000 := ⟨⟨(i 0).val / 2000, by rw [N_eq]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 64 ≤ (i 1).val ∧ (i 1).val < win2_5.index t (1 : Fin 2) * 64 + 64
    rw [e1]; omega

/-- THE RESULT ARRAY after the region: the layer of the arrays the region is entered with. -/
theorem final (c : Dev nD) : (dat2 V c).arrAt 5 cfg2.N = layer V c :=
  (dat2 V c).arrAt_eq_of_cover 5 (layer V c) (fun t _ => flushed_eq V c t) cover

end Cert.KernelIdeal.Val2

end
-- ==== Proof.HostChain.lean ====
/-
  The kernel program's host operations between its three pallas_calls, read back to the launch arrays.

  Two functions are all the host side computes. `invDeg dst` is 1 / max(deg, 1), where deg counts, by a scatter-add of
  ones, the edges that end at each node. `agg h inv src dst` is the mean aggregation of a feature array h: the rows
  h[src] gathered per edge (negative indices wrapped by 100000 first), scatter-added at dst into a zero array, each
  row then scaled by the node's `inv`. Every stretch of host operations writes one aggregation (of the features the
  region before it left) and one bias row reshaped to [1, d]; it touches nothing else a later region reads. The
  lemmas below read each operand of each region through the stretches; `W2`, `W4` (the contents a region leaves) stay
  folded.
-/
import proofs.«156895_j7146825581283_1_alg».proof.Proof.KernelIdealFrameP
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- 1 / max(in-degree, 1): the in-degree by a scatter-add of ones at the edges' targets. -/
def invDeg (dst : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The mean aggregation of `h` over the edges (src → dst), with `inv` the per-node scale. -/
def agg (h : (⟨S100000x128, .f32⟩ : BufTy).Contents (Elt F)) (inv : (⟨S100000, .f32⟩ : BufTy).Contents (Elt F))
    (src dst : (⟨S1600000, .i32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 inv))

variable (m : (ℓ : Loc nD τ sig) → Buf (Elt F) ℓ) (ρ : Dev nD → PrngReg)

/-! ## The first stretch, from the launch memory -/

theorem W1_v7 (c : Dev nD) : W1 m ρ c (Proc.devRef .tc main_v7) = invDeg (m ((c : Thread nD τ).loc main_arg11)) := by
  dsimp only [W1, hostOps0]; after_results <;> rfl

set_option maxHeartbeats 4000000 in
theorem W1_v20 (c : Dev nD) : W1 m ρ c (Proc.devRef .tc main_v20)
    = agg (m ((c : Thread nD τ).loc main_arg0)) (invDeg (m ((c : Thread nD τ).loc main_arg11))) (m ((c : Thread nD τ).loc main_arg10)) (m ((c : Thread nD τ).loc main_arg11)) := by
  unfold agg invDeg
  dsimp only [W1, hostOps0]
  after_results_simp <;> rfl

theorem W1_v21 (c : Dev nD) : W1 m ρ c (Proc.devRef .tc main_v21)
    = shapeCast S1x128 (m ((c : Thread nD τ).loc main_arg3)) shapeCasts_S128_S1x128 := by
  dsimp only [W1, hostOps0]; after_results <;> rfl

theorem W1_arg0 (c : Dev nD) : W1 m ρ c (Proc.devRef .tc main_arg0) = m ((c : Thread nD τ).loc main_arg0) := by
  dsimp only [W1, hostOps0]; after_results <;> rfl

theorem W1_arg1 (c : Dev nD) : W1 m ρ c (Proc.devRef .tc main_arg1) = m ((c : Thread nD τ).loc main_arg1) := by
  dsimp only [W1, hostOps0]; after_results <;> rfl

theorem W1_arg2 (c : Dev nD) : W1 m ρ c (Proc.devRef .tc main_arg2) = m ((c : Thread nD τ).loc main_arg2) := by
  dsimp only [W1, hostOps0]; after_results <;> rfl

theorem W1_arg4 (c : Dev nD) : W1 m ρ c (Proc.devRef .tc main_arg4) = m ((c : Thread nD τ).loc main_arg4) := by
  dsimp only [W1, hostOps0]; after_results <;> rfl

theorem W1_arg5 (c : Dev nD) : W1 m ρ c (Proc.devRef .tc main_arg5) = m ((c : Thread nD τ).loc main_arg5) := by
  dsimp only [W1, hostOps0]; after_results <;> rfl

theorem W1_arg6 (c : Dev nD) : W1 m ρ c (Proc.devRef .tc main_arg6) = m ((c : Thread nD τ).loc main_arg6) := by
  dsimp only [W1, hostOps0]; after_results <;> rfl

theorem W1_arg7 (c : Dev nD) : W1 m ρ c (Proc.devRef .tc main_arg7) = m ((c : Thread nD τ).loc main_arg7) := by
  dsimp only [W1, hostOps0]; after_results <;> rfl

theorem W1_arg8 (c : Dev nD) : W1 m ρ c (Proc.devRef .tc main_arg8) = m ((c : Thread nD τ).loc main_arg8) := by
  dsimp only [W1, hostOps0]; after_results <;> rfl

theorem W1_arg9 (c : Dev nD) : W1 m ρ c (Proc.devRef .tc main_arg9) = m ((c : Thread nD τ).loc main_arg9) := by
  dsimp only [W1, hostOps0]; after_results <;> rfl

theorem W1_arg10 (c : Dev nD) : W1 m ρ c (Proc.devRef .tc main_arg10) = m ((c : Thread nD τ).loc main_arg10) := by
  dsimp only [W1, hostOps0]; after_results <;> rfl

theorem W1_arg11 (c : Dev nD) : W1 m ρ c (Proc.devRef .tc main_arg11) = m ((c : Thread nD τ).loc main_arg11) := by
  dsimp only [W1, hostOps0]; after_results <;> rfl

/-! ## The second stretch, from what the first region leaves (`W2`) -/

set_option maxHeartbeats 4000000 in
theorem W3_v35 (c : Dev nD) : W3 m ρ c (Proc.devRef .tc main_v35)
    = agg (W2 m ρ c (Proc.devRef .tc main_v22)) (W2 m ρ c (Proc.devRef .tc main_v7))
        (W2 m ρ c (Proc.devRef .tc main_arg10)) (W2 m ρ c (Proc.devRef .tc main_arg11)) := by
  unfold agg
  dsimp only [W3, hostOps1]
  after_results_simp <;> rfl

theorem W3_v36 (c : Dev nD) : W3 m ρ c (Proc.devRef .tc main_v36)
    = shapeCast S1x128 (W2 m ρ c (Proc.devRef .tc main_arg6)) shapeCasts_S128_S1x128 := by
  dsimp only [W3, hostOps1]; after_results <;> rfl

theorem W3_v22 (c : Dev nD) : W3 m ρ c (Proc.devRef .tc main_v22) = W2 m ρ c (Proc.devRef .tc main_v22) := by
  dsimp only [W3, hostOps1]; after_results <;> rfl

theorem W3_v7 (c : Dev nD) : W3 m ρ c (Proc.devRef .tc main_v7) = W2 m ρ c (Proc.devRef .tc main_v7) := by
  dsimp only [W3, hostOps1]; after_results <;> rfl

theorem W3_arg4 (c : Dev nD) : W3 m ρ c (Proc.devRef .tc main_arg4) = W2 m ρ c (Proc.devRef .tc main_arg4) := by
  dsimp only [W3, hostOps1]; after_results <;> rfl

theorem W3_arg5 (c : Dev nD) : W3 m ρ c (Proc.devRef .tc main_arg5) = W2 m ρ c (Proc.devRef .tc main_arg5) := by
  dsimp only [W3, hostOps1]; after_results <;> rfl

theorem W3_arg7 (c : Dev nD) : W3 m ρ c (Proc.devRef .tc main_arg7) = W2 m ρ c (Proc.devRef .tc main_arg7) := by
  dsimp only [W3, hostOps1]; after_results <;> rfl

theorem W3_arg8 (c : Dev nD) : W3 m ρ c (Proc.devRef .tc main_arg8) = W2 m ρ c (Proc.devRef .tc main_arg8) := by
  dsimp only [W3, hostOps1]; after_results <;> rfl

theorem W3_arg9 (c : Dev nD) : W3 m ρ c (Proc.devRef .tc main_arg9) = W2 m ρ c (Proc.devRef .tc main_arg9) := by
  dsimp only [W3, hostOps1]; after_results <;> rfl

theorem W3_arg10 (c : Dev nD) : W3 m ρ c (Proc.devRef .tc main_arg10) = W2 m ρ c (Proc.devRef .tc main_arg10) := by
  dsimp only [W3, hostOps1]; after_results <;> rfl

theorem W3_arg11 (c : Dev nD) : W3 m ρ c (Proc.devRef .tc main_arg11) = W2 m ρ c (Proc.devRef .tc main_arg11) := by
  dsimp only [W3, hostOps1]; after_results <;> rfl

/-! ## The third stretch, from what the second region leaves (`W4`) -/

set_option maxHeartbeats 4000000 in
theorem W5_v50 (c : Dev nD) : W5 m ρ c (Proc.devRef .tc main_v50)
    = agg (W4 m ρ c (Proc.devRef .tc main_v37)) (W4 m ρ c (Proc.devRef .tc main_v7))
        (W4 m ρ c (Proc.devRef .tc main_arg10)) (W4 m ρ c (Proc.devRef .tc main_arg11)) := by
  unfold agg
  dsimp only [W5, hostOps2]
  after_results_simp <;> rfl

theorem W5_v51 (c : Dev nD) : W5 m ρ c (Proc.devRef .tc main_v51)
    = shapeCast S1x64 (W4 m ρ c (Proc.devRef .tc main_arg9)) shapeCasts_S64_S1x64 := by
  dsimp only [W5, hostOps2]; after_results <;> rfl

theorem W5_v37 (c : Dev nD) : W5 m ρ c (Proc.devRef .tc main_v37) = W4 m ρ c (Proc.devRef .tc main_v37) := by
  dsimp only [W5, hostOps2]; after_results <;> rfl

theorem W5_arg7 (c : Dev nD) : W5 m ρ c (Proc.devRef .tc main_arg7) = W4 m ρ c (Proc.devRef .tc main_arg7) := by
  dsimp only [W5, hostOps2]; after_results <;> rfl

theorem W5_arg8 (c : Dev nD) : W5 m ρ c (Proc.devRef .tc main_arg8) = W4 m ρ c (Proc.devRef .tc main_arg8) := by
  dsimp only [W5, hostOps2]; after_results <;> rfl

end Cert.KernelIdeal.Chain

end
-- ==== Proof.KernelValue.lean ====
/-
  The kernel program's result as a function of its arguments.

  Each pallas_call leaves the dense layer of the arrays it is entered with (the three region modules), and each
  stretch of host operations hands the next region the features the region before left, their mean aggregation, the
  next weights and the next bias row (the host-chain module). Composed from the launch memory: the first hidden
  features `h1`, the second `h2` over `h1`, and the result `out` over `h2`, every aggregation the same function
  `agg · (invDeg dst) src dst` of the features before it. Nothing between the regions touches the in-degree
  reciprocal, the edge lists or a later layer's parameters, so each is read back to the launch memory.
-/
import proofs.«156895_j7146825581283_1_alg».proof.Proof.KernelIdealRunP
import proofs.«156895_j7146825581283_1_alg».proof.Proof.Region0Value
import proofs.«156895_j7146825581283_1_alg».proof.Proof.Region1Value
import proofs.«156895_j7146825581283_1_alg».proof.Proof.Region2Value
import proofs.«156895_j7146825581283_1_alg».proof.Proof.HostChain

set_option maxRecDepth 16384

noncomputable section

namespace Cert.KernelIdeal.KVal

open Cert.KernelIdeal Cert.KernelIdeal.Gen Cert.KernelIdeal.GenP Cert.KernelIdeal.Chain
open Idealize.ShloMosaic Idealize.ShloMosaic.TcCoe Idealize.SL.Sem

variable (m : (ℓ : Loc nD τ sig) → Buf (Elt Ideal) ℓ) (ρ : Dev nD → PrngReg)

/-! ## What no region writes, read back to the launch memory -/

theorem W2_v7 (c : Dev nD) : W2 m ρ c (Proc.devRef .tc main_v7) = invDeg (m ((c : Thread nD τ).loc main_arg11)) :=
  (W2_of_ne m ρ c main_v7 (by decide)).trans (W1_v7 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

theorem W4_v7 (c : Dev nD) : W4 m ρ c (Proc.devRef .tc main_v7) = invDeg (m ((c : Thread nD τ).loc main_arg11)) :=
  (W4_of_ne m ρ c main_v7 (by decide)).trans ((W3_v7 m ρ c).trans (W2_v7 m ρ c))
theorem W4_arg7 (c : Dev nD) : W4 m ρ c (Proc.devRef .tc main_arg7) = m ((c : Thread nD τ).loc main_arg7) :=
  (W4_of_ne m ρ c main_arg7 (by decide)).trans ((W3_arg7 m ρ c).trans (W2_arg7 m ρ c))
theorem W4_arg8 (c : Dev nD) : W4 m ρ c (Proc.devRef .tc main_arg8) = m ((c : Thread nD τ).loc main_arg8) :=
  (W4_of_ne m ρ c main_arg8 (by decide)).trans ((W3_arg8 m ρ c).trans (W2_arg8 m ρ c))
theorem W4_arg9 (c : Dev nD) : W4 m ρ c (Proc.devRef .tc main_arg9) = m ((c : Thread nD τ).loc main_arg9) :=
  (W4_of_ne m ρ c main_arg9 (by decide)).trans ((W3_arg9 m ρ c).trans (W2_arg9 m ρ c))
theorem W4_arg10 (c : Dev nD) : W4 m ρ c (Proc.devRef .tc main_arg10) = m ((c : Thread nD τ).loc main_arg10) :=
  (W4_of_ne m ρ c main_arg10 (by decide)).trans ((W3_arg10 m ρ c).trans (W2_arg10 m ρ c))
theorem W4_arg11 (c : Dev nD) : W4 m ρ c (Proc.devRef .tc main_arg11) = m ((c : Thread nD τ).loc main_arg11) :=
  (W4_of_ne m ρ c main_arg11 (by decide)).trans ((W3_arg11 m ρ c).trans (W2_arg11 m ρ c))

/-! ## The three layers -/

/-- The first hidden features: the layer of the node features and their aggregation. -/
def h1 (c : Dev nD) : Vec Ideal S100000x128 .f32 :=
  Sage.dense true (m ((c : Thread nD τ).loc main_arg0)) (agg (m ((c : Thread nD τ).loc main_arg0)) (invDeg (m ((c : Thread nD τ).loc main_arg11))) (m ((c : Thread nD τ).loc main_arg10)) (m ((c : Thread nD τ).loc main_arg11)))
    (m ((c : Thread nD τ).loc main_arg1)) (m ((c : Thread nD τ).loc main_arg2)) (shapeCast S1x128 (m ((c : Thread nD τ).loc main_arg3)) shapeCasts_S128_S1x128)

/-- The second hidden features, over the first. -/
def h2 (c : Dev nD) : Vec Ideal S100000x128 .f32 :=
  Sage.dense true (h1 m c) (agg (h1 m c) (invDeg (m ((c : Thread nD τ).loc main_arg11))) (m ((c : Thread nD τ).loc main_arg10)) (m ((c : Thread nD τ).loc main_arg11)))
    (m ((c : Thread nD τ).loc main_arg4)) (m ((c : Thread nD τ).loc main_arg5)) (shapeCast S1x128 (m ((c : Thread nD τ).loc main_arg6)) shapeCasts_S128_S1x128)

/-- The result, over the second hidden features. -/
def out (c : Dev nD) : Vec Ideal S100000x64 .f32 :=
  Sage.dense false (h2 m c) (agg (h2 m c) (invDeg (m ((c : Thread nD τ).loc main_arg11))) (m ((c : Thread nD τ).loc main_arg10)) (m ((c : Thread nD τ).loc main_arg11)))
    (m ((c : Thread nD τ).loc main_arg7)) (m ((c : Thread nD τ).loc main_arg8)) (shapeCast S1x64 (m ((c : Thread nD τ).loc main_arg9)) shapeCasts_S64_S1x64)

/-- The first region leaves the first hidden features in its result array. -/
theorem W2_v22 (c : Dev nD) : W2 m ρ c (Proc.devRef .tc main_v22) = h1 m c := by
  refine (W2_arr m ρ c 5).trans ((Val0.final (V1 m ρ) c).trans ?_)
  show Sage.dense true (W1 m ρ c (Proc.devRef .tc main_arg0)) (W1 m ρ c (Proc.devRef .tc main_v20))
    (W1 m ρ c (Proc.devRef .tc main_arg1)) (W1 m ρ c (Proc.devRef .tc main_arg2)) (W1 m ρ c (Proc.devRef .tc main_v21)) = _
  rw [W1_arg0, W1_v20, W1_arg1, W1_arg2, W1_v21]
  rfl

/-- The second region leaves the second hidden features. -/
theorem W4_v37 (c : Dev nD) : W4 m ρ c (Proc.devRef .tc main_v37) = h2 m c := by
  refine (W4_arr m ρ c 5).trans ((Val1.final (V3 m ρ) c).trans ?_)
  show Sage.dense true (W3 m ρ c (Proc.devRef .tc main_v22)) (W3 m ρ c (Proc.devRef .tc main_v35))
    (W3 m ρ c (Proc.devRef .tc main_arg4)) (W3 m ρ c (Proc.devRef .tc main_arg5)) (W3 m ρ c (Proc.devRef .tc main_v36)) = _
  rw [W3_v22, W3_v35, W3_arg4, W3_arg5, W3_v36, W2_v22, W2_v7, W2_arg10, W2_arg11, W2_arg4, W2_arg5, W2_arg6]
  rfl

/-- The third region leaves the result. -/
theorem W6_v52 (c : Dev nD) : W6 m ρ c (Proc.devRef .tc main_v52) = out m c := by
  refine (W6_arr m ρ c 5).trans ((Val2.final (V5 m ρ) c).trans ?_)
  show Sage.dense false (W5 m ρ c (Proc.devRef .tc main_v37)) (W5 m ρ c (Proc.devRef .tc main_v50))
    (W5 m ρ c (Proc.devRef .tc main_arg7)) (W5 m ρ c (Proc.devRef .tc main_arg8)) (W5 m ρ c (Proc.devRef .tc main_v51)) = _
  rw [W5_v37, W5_v50, W5_arg7, W5_arg8, W5_v51, W4_v37, W4_v7, W4_arg10, W4_arg11, W4_arg7, W4_arg8, W4_arg9]
  rfl

/-- The result is the three-layer network of the launch arrays over the kernel program's own aggregation. -/
theorem out_eq_net (c : Dev nD) : out m c
    = Sage.net (fun h => agg h (invDeg (m ((c : Thread nD τ).loc main_arg11))) (m ((c : Thread nD τ).loc main_arg10)) (m ((c : Thread nD τ).loc main_arg11))) (m ((c : Thread nD τ).loc main_arg0))
        (m ((c : Thread nD τ).loc main_arg1)) (m ((c : Thread nD τ).loc main_arg2)) (shapeCast S1x128 (m ((c : Thread nD τ).loc main_arg3)) shapeCasts_S128_S1x128)
        (m ((c : Thread nD τ).loc main_arg4)) (m ((c : Thread nD τ).loc main_arg5)) (shapeCast S1x128 (m ((c : Thread nD τ).loc main_arg6)) shapeCasts_S128_S1x128)
        (m ((c : Thread nD τ).loc main_arg7)) (m ((c : Thread nD τ).loc main_arg8)) (shapeCast S1x64 (m ((c : Thread nD τ).loc main_arg9)) shapeCasts_S64_S1x64) := rfl

/-! ## The run, read -/

/-- Every weakly fair execution of the kernel program ends with the result array at `out` and the arguments as launched. -/
theorem run : θ_run defs (onTc (τ := τ) (main (F := Ideal))) ⟨m, fun _ => 0, ρ⟩ (fun r => ∀ c : Dev nD,
      r.2.mem ((c.tc : Thread nD τ).loc main_v52) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v52 m ρ c), (h c).2⟩) (run_result m ρ)

end Cert.KernelIdeal.KVal

end
-- ==== Proof.RefValue.lean ====
/-
  The reference's result as the three-layer network of its arguments.

  The reference computes each layer on the host:  h · ws + agg(h) · wn + b  by two matrix products without an
  accumulator and the bias row spread over the rows, then (for the two hidden layers) the maximum with a zero array.
  Its aggregation is ONE function of the feature array at all three layers (the gather at the wrapped source indices,
  the scatter-add at the targets, the scaling by the reciprocal clamped in-degree): the stage that computes the second
  and third aggregation is the first one's stage at the hidden features. With each host product read as a plain sum
  the result is the network `Sage.net` of the arguments, the bias rows laid out by a broadcast along a new first axis.
-/
import proofs.«156895_j7146825581283_1_alg».proof.Proof.Gen.ReferenceIdeal.Run
import proofs.«156895_j7146825581283_1_alg».proof.Proof.Gen.ReferenceIdeal.Read
import proofs.«156895_j7146825581283_1_alg».proof.Proof.LayerOps

noncomputable section

namespace Cert.ReferenceIdeal.RefValue

open Cert.ReferenceIdeal Cert.ReferenceIdeal.Gen Cert.ReferenceIdeal.Read
open Idealize.ShloMosaic Idealize.ShloMosaic.TcCoe Idealize.SL.Sem

section AnyFloats

variable {F : FTy → Type} [FloatOps F]

/-- The second layer's aggregation is the first layer's, applied to the first hidden features. -/
theorem v40_eq (x0 : (⟨S100000x128, .f32⟩ : BufTy).Contents (Elt F)) (x1 x2 : (⟨S128x128, .f32⟩ : BufTy).Contents (Elt F)) (x3 : (⟨S128, .f32⟩ : BufTy).Contents (Elt F))
    (x10 x11 : (⟨S1600000, .i32⟩ : BufTy).Contents (Elt F)) :
    val_main_v40 (F := F) x0 x1 x2 x3 x10 x11
      = val_main_v20 (F := F) (val_main_v27 (F := F) x0 x1 x2 x3 x10 x11) x10 x11 := rfl

/-- The third layer's aggregation is the first layer's, applied to the second hidden features. -/
theorem v60_eq (x0 : (⟨S100000x128, .f32⟩ : BufTy).Contents (Elt F)) (x1 x2 : (⟨S128x128, .f32⟩ : BufTy).Contents (Elt F)) (x3 : (⟨S128, .f32⟩ : BufTy).Contents (Elt F))
    (x4 x5 : (⟨S128x128, .f32⟩ : BufTy).Contents (Elt F)) (x6 : (⟨S128, .f32⟩ : BufTy).Contents (Elt F)) (x10 x11 : (⟨S1600000, .i32⟩ : BufTy).Contents (Elt F)) :
    val_main_v60 (F := F) x0 x1 x2 x3 x4 x5 x6 x10 x11
      = val_main_v20 (F := F) (val_main_v47 (F := F) x0 x1 x2 x3 x4 x5 x6 x10 x11) x10 x11 := rfl

end AnyFloats

/-- The host's products contract the features' columns with the weights' rows. -/
theorem plain128 : Sage.PlainDot dot_S100000x128_S128x128_S100000x128_1_0_0_1_n_n := ⟨rfl, rfl, rfl, rfl, rfl, rfl⟩
theorem plain64 : Sage.PlainDot dot_S100000x128_S128x64_S100000x64_1_0_0_1_n_n := ⟨rfl, rfl, rfl, rfl, rfl, rfl⟩

/-- The first hidden layer. -/
theorem v27_eq (x0 : (⟨S100000x128, .f32⟩ : BufTy).Contents (Elt Ideal)) (x1 x2 : (⟨S128x128, .f32⟩ : BufTy).Contents (Elt Ideal)) (x3 : (⟨S128, .f32⟩ : BufTy).Contents (Elt Ideal))
    (x10 x11 : (⟨S1600000, .i32⟩ : BufTy).Contents (Elt Ideal)) :
    val_main_v27 (F := Ideal) x0 x1 x2 x3 x10 x11
      = Sage.dense true x0 (val_main_v20 (F := Ideal) x0 x10 x11) x1 x2 (val_main_v24 (F := Ideal) x3) := by
  unfold val_main_v27 val_main_v26 val_main_v23 val_main_v21 val_main_v22 val_main_v25 val_main_call0_v0 val_main_call0_cst
  exact Sage.hostLayer_relu_eq dot_S100000x128_S128x128_S100000x128_1_0_0_1_n_n plain128 x0
    (val_main_v20 (F := Ideal) x0 x10 x11) x1 x2 (val_main_v24 (F := Ideal) x3) bcast_S1x128_S100000x128_0_1 bcast_S_S100000x128

/-- The second hidden layer, over the first. -/
theorem v47_eq (x0 : (⟨S100000x128, .f32⟩ : BufTy).Contents (Elt Ideal)) (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal)) (x10 x11 : (⟨S1600000, .i32⟩ : BufTy).Contents (Elt Ideal)) :
    val_main_v47 (F := Ideal) x0 x1 x2 x3 x4 x5 x6 x10 x11
      = Sage.dense true (val_main_v27 (F := Ideal) x0 x1 x2 x3 x10 x11)
          (val_main_v20 (F := Ideal) (val_main_v27 (F := Ideal) x0 x1 x2 x3 x10 x11) x10 x11) x4 x5
          (val_main_v44 (F := Ideal) x6) := by
  unfold val_main_v47 val_main_v46 val_main_v43 val_main_v41 val_main_v42 val_main_v45 val_main_call1_v0 val_main_call1_cst
  rw [v40_eq]
  exact Sage.hostLayer_relu_eq dot_S100000x128_S128x128_S100000x128_1_0_0_1_n_n plain128
    (val_main_v27 (F := Ideal) x0 x1 x2 x3 x10 x11)
    (val_main_v20 (F := Ideal) (val_main_v27 (F := Ideal) x0 x1 x2 x3 x10 x11) x10 x11) x4 x5
    (val_main_v44 (F := Ideal) x6) bcast_S1x128_S100000x128_0_1 bcast_S_S100000x128

/-- The output layer, over the second hidden layer. -/
theorem v66_eq (x0 : (⟨S100000x128, .f32⟩ : BufTy).Contents (Elt Ideal)) (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal)) (x7 x8 : (⟨S128x64, .f32⟩ : BufTy).Contents (Elt Ideal)) (x9 : (⟨S64, .f32⟩ : BufTy).Contents (Elt Ideal))
    (x10 x11 : (⟨S1600000, .i32⟩ : BufTy).Contents (Elt Ideal)) :
    val_main_v66 (F := Ideal) x0 x1 x2 x3 x4 x5 x6 x7 x8 x9 x10 x11
      = Sage.dense false (val_main_v47 (F := Ideal) x0 x1 x2 x3 x4 x5 x6 x10 x11)
          (val_main_v20 (F := Ideal) (val_main_v47 (F := Ideal) x0 x1 x2 x3 x4 x5 x6 x10 x11) x10 x11) x7 x8
          (val_main_v64 (F := Ideal) x9) := by
  unfold val_main_v66 val_main_v63 val_main_v61 val_main_v62 val_main_v65
  rw [v60_eq]
  exact Sage.hostLayer_eq dot_S100000x128_S128x64_S100000x64_1_0_0_1_n_n plain64
    (val_main_v47 (F := Ideal) x0 x1 x2 x3 x4 x5 x6 x10 x11)
    (val_main_v20 (F := Ideal) (val_main_v47 (F := Ideal) x0 x1 x2 x3 x4 x5 x6 x10 x11) x10 x11) x7 x8
    (val_main_v64 (F := Ideal) x9) bcast_S1x64_S100000x64_0_1

/-- THE REFERENCE'S RESULT: the network of its arguments, over its own aggregation. -/
theorem result_eq (x0 : (⟨S100000x128, .f32⟩ : BufTy).Contents (Elt Ideal)) (x1 x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal)) (x7 x8 : (⟨S128x64, .f32⟩ : BufTy).Contents (Elt Ideal)) (x9 : (⟨S64, .f32⟩ : BufTy).Contents (Elt Ideal))
    (x10 x11 : (⟨S1600000, .i32⟩ : BufTy).Contents (Elt Ideal)) :
    val_main_v66 (F := Ideal) x0 x1 x2 x3 x4 x5 x6 x7 x8 x9 x10 x11
      = Sage.net (fun h => val_main_v20 (F := Ideal) h x10 x11) x0 x1 x2 (val_main_v24 (F := Ideal) x3)
          x4 x5 (val_main_v44 (F := Ideal) x6) x7 x8 (val_main_v64 (F := Ideal) x9) := by
  rw [v66_eq, v47_eq, v27_eq]
  rfl

end Cert.ReferenceIdeal.RefValue

end
-- ==== Proof.LibRowMatrix.lean ====
/-
  A vector laid out as a one-row matrix, two ways.

  The kernel's program reshapes each bias vector of length n to a [1, n] matrix; the reference broadcasts it
  along a new leading axis of extent one. Both matrices hold the vector's entry j at (0, j).
-/
import Idealize.ShloMosaic.Lib.Pipeline.Value

namespace Cert.LibRowMatrix

open Idealize.ShloMosaic

/-- For n other than one, the reshape of a length-n vector to [1, n] is its broadcast along a new leading unit axis. -/
theorem shapeCast_eq_broadcastInDim {n : Nat} {α : Type} (hn : n ≠ 1) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ (![1] : Fin 1 → Fin 2) hb x := by
  funext j
  have h0 : (j 0).val = 0 := by have h : (j 0).val < 1 := (j 0).isLt; omega
  let k : (⟨1, ![n]⟩ : Shape).Idx := fun a => match a with
    | ⟨0, _⟩ => ⟨(j 1).val, (j 1).isLt⟩
  rw [shapeCast_apply x hc j k (by
        rw [Shape.rowMajor_val_one, Shape.rowMajor_val_two]
        show (j 1).val = (j 0).val * n + (j 1).val
        rw [h0]; omega),
      broadcastInDim_apply (![1] : Fin 1 → Fin 2) hb x j k (fun a => match a with
        | ⟨0, _⟩ => by
          show (j 1).val = if n = 1 then 0 else (j 1).val
          rw [if_neg hn])]

end Cert.LibRowMatrix
-- ==== Proof.Bridge.lean ====
/-
  The two programs' host sides are one.

  The kernel program and the reference state the same host operations for the mean aggregation — the same gather at
  the wrapped source indices, the same scatter-add at the targets, the same scaling by the reciprocal clamped in-degree,
  with the same dimension records —, so the kernel program's `agg · (invDeg dst) src dst` and the reference's first
  aggregation stage are the same function of a feature array, whatever the float values are: the comparison never opens
  a gather or a scatter. The bias rows differ in spelling only: the kernel program reshapes a length-n vector to [1, n],
  the reference broadcasts it along a new first axis.
-/
import proofs.«156895_j7146825581283_1_alg».proof.Proof.HostChain
import proofs.«156895_j7146825581283_1_alg».proof.Proof.Gen.ReferenceIdeal.Read
import proofs.«156895_j7146825581283_1_alg».proof.Proof.LibRowMatrix

noncomputable section

namespace Cert.Bridge

open Idealize.ShloMosaic Idealize.ShloMosaic.TcCoe Idealize.SL.Sem

section AnyFloats

variable {F : FTy → Type} [FloatOps F]

/-- The aggregation, in the kernel program's spelling and in the reference's. -/
theorem agg_eq (h : (⟨Cert.KernelIdeal.S100000x128, .f32⟩ : BufTy).Contents (Elt F))
    (src dst : (⟨Cert.KernelIdeal.S1600000, .i32⟩ : BufTy).Contents (Elt F)) :
    Cert.KernelIdeal.Chain.agg (F := F) h (Cert.KernelIdeal.Chain.invDeg (F := F) dst) src dst
      = Cert.ReferenceIdeal.Read.val_main_v20 (F := F) h src dst := rfl

end AnyFloats

/-- A bias vector of length 128 as a one-row matrix: the reshape is the broadcast along a new first axis. -/
theorem row128 (b : (⟨Cert.KernelIdeal.S128, .f32⟩ : BufTy).Contents (Elt Ideal)) :
    shapeCast Cert.KernelIdeal.S1x128 b Cert.KernelIdeal.Gen.shapeCasts_S128_S1x128
      = Cert.ReferenceIdeal.Read.val_main_v24 (F := Ideal) b :=
  Cert.LibRowMatrix.shapeCast_eq_broadcastInDim (n := 128) (by decide) b _ _

/-- The same for the output layer's bias of length 64. -/
theorem row64 (b : (⟨Cert.KernelIdeal.S64, .f32⟩ : BufTy).Contents (Elt Ideal)) :
    shapeCast Cert.KernelIdeal.S1x64 b Cert.KernelIdeal.Gen.shapeCasts_S64_S1x64
      = Cert.ReferenceIdeal.Read.val_main_v64 (F := Ideal) b :=
  Cert.LibRowMatrix.shapeCast_eq_broadcastInDim (n := 64) (by decide) b _ _

/-- The second hidden layer's bias row is laid out like the first's. -/
theorem row128' (b : (⟨Cert.KernelIdeal.S128, .f32⟩ : BufTy).Contents (Elt Ideal)) :
    shapeCast Cert.KernelIdeal.S1x128 b Cert.KernelIdeal.Gen.shapeCasts_S128_S1x128
      = Cert.ReferenceIdeal.Read.val_main_v44 (F := Ideal) b :=
  Cert.LibRowMatrix.shapeCast_eq_broadcastInDim (n := 128) (by decide) b _ _

end Cert.Bridge

end
-- ==== Proof.lean ====
/-
  Three layers of a graph network with mean aggregation: the Pallas program against its jnp reference, over the
  extended reals.

  Both programs compute, three times over,   h ↦ act (h · Wself + agg(h) · Wneigh + b),   where agg(h) averages h over each
  node's in-neighbours (gather along the edges' sources, scatter-add at their targets, divide by the clamped in-degree)
  and act is the cut-off at zero for the two hidden layers and nothing for the output layer. The aggregation is the same
  list of host operations in both programs. The dense part differs in where it runs: the kernel program computes it in
  a pallas_call over fifty blocks of 2000 rows, with two matrix products into a zero accumulator on operands narrowed to
  a 16-bit format (no change on the extended reals) and the bias as a reshaped row; the reference computes it on the
  host with two dot products and the bias as a broadcast row. Read at an index, each product is the plain sum
  Σₖ a (p, k) · b (k, q)  on either machine, so each layer is the same array on both sides, and the three layers compose to
  the same network of the arguments. No entry has to be finite for this: both sides are the same expression.

  The frames of the two kernel programs are the generated ones; the reference's frame is its generated run with the
  result dropped; the idealization rewrote nothing.
-/
import proofs.«156895_j7146825581283_1_alg».proof.Defs
import proofs.«156895_j7146825581283_1_alg».proof.Proof.Gen.Kernel
import proofs.«156895_j7146825581283_1_alg».proof.Proof.Gen.Kernel.Skeleton
import proofs.«156895_j7146825581283_1_alg».proof.Proof.KernelLaunchP
import proofs.«156895_j7146825581283_1_alg».proof.Proof.Gen.Kernel.Points
import proofs.«156895_j7146825581283_1_alg».proof.Proof.KernelFrameP
import proofs.«156895_j7146825581283_1_alg».proof.Proof.Gen.KernelIdeal
import proofs.«156895_j7146825581283_1_alg».proof.Proof.Gen.KernelIdeal.Skeleton
import proofs.«156895_j7146825581283_1_alg».proof.Proof.KernelIdealLaunchP
import proofs.«156895_j7146825581283_1_alg».proof.Proof.Gen.KernelIdeal.Points
import proofs.«156895_j7146825581283_1_alg».proof.Proof.KernelIdealFrameP
import proofs.«156895_j7146825581283_1_alg».proof.Proof.Gen.ReferenceIdeal
import proofs.«156895_j7146825581283_1_alg».proof.Proof.Gen.Pre_finite_inputs
import proofs.«156895_j7146825581283_1_alg».proof.Proof.KernelValue
import proofs.«156895_j7146825581283_1_alg».proof.Proof.RefValue
import proofs.«156895_j7146825581283_1_alg».proof.Proof.Bridge
import Idealize.ShloMosaic.Adequacy
import Idealize.ShloMosaic.Init

noncomputable section

namespace Cert.Proof

open Idealize.ShloMosaic Idealize.SL.Sem

/-- The kernel program's result is the network of its arguments in the reference's spelling: the same aggregation, the
    bias rows broadcast instead of reshaped. -/
theorem out_eq (m : (ℓ : Loc Cert.KernelIdeal.nD Cert.KernelIdeal.τ Cert.KernelIdeal.sig) → Buf (Elt Ideal) ℓ)
    (c : Dev Cert.KernelIdeal.nD) :
    Cert.KernelIdeal.KVal.out m c
      = Cert.Sage.net (fun h => Cert.ReferenceIdeal.Read.val_main_v20 (F := Ideal) h (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (Cert.ReferenceIdeal.Read.val_main_v24 (F := Ideal) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (Cert.ReferenceIdeal.Read.val_main_v44 (F := Ideal) (m ((c.tc : Thread Cert.KernelIdeal.nD Cert.KernelIdeal.τ).loc Cert.KernelIdeal.main_arg6)))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (Cert.ReferenceIdeal.Read.val_main_v64 (F := Ideal) (m ((c.tc : Thread Cert.KernelIdeal.nD Cert.KernelIdeal.τ).loc Cert.KernelIdeal.main_arg9))) := by
  rw [Cert.KernelIdeal.KVal.out_eq_net, Cert.Bridge.row128, Cert.Bridge.row128', Cert.Bridge.row64]
  exact congrArg (fun f => Cert.Sage.net f _ _ _ _ _ _ _ _ _ _) (funext fun h => Cert.Bridge.agg_eq (F := Ideal) h _ _)

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the same network of the arguments. -/
theorem algebraic : Cert.algebraic_KernelIdeal_ReferenceIdeal := by
  intro m ρ m' ρ' _ hagree
  refine ⟨fun c => Cert.KernelIdeal.KVal.out m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v66_eq, e0, e1, e2, e3, e4, e5, e6, e7, e8, e9, e10, e11]
  exact (Cert.ReferenceIdeal.RefValue.result_eq _ _ _ _ _ _ _ _ _ _ _ _).trans (out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
